-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x89 : Shape := ⟨2, ![50000, 89]⟩
abbrev S2x800000 : Shape := ⟨2, ![2, 800000]⟩
abbrev S89x128 : Shape := ⟨2, ![89, 128]⟩
abbrev S128 : Shape := ⟨1, ![128]⟩
abbrev S128x128 : Shape := ⟨2, ![128, 128]⟩
abbrev S_ : Shape := ⟨0, ![]⟩

class Facts : Prop where
  bcast_S_S50000x89 : S_.BroadcastsInDim S50000x89 (![] : Fin 0 → Fin S50000x89.rank)
  reducesTo_S50000x89_S_d0_1 : S50000x89.ReducesTo [0, 1] S_
  h_S_ : 0 < S_.numel
  bcast_S_S89x128 : S_.BroadcastsInDim S89x128 (![] : Fin 0 → Fin S89x128.rank)
  reducesTo_S89x128_S_d0_1 : S89x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x89 .f32) (main_arg1 : IVec S2x800000 32) (main_arg2 : FVec F S89x128 .f32) (main_arg3 : FVec F S128 .f32) (main_arg4 : FVec F S128x128 .f32) (main_arg5 : FVec F S128 .f32) : IVec S_ 1 :=
  let main_v0 : FVec F S50000x89 .f32 := Host.absf main_arg0
  let main_cst : FVec F S_ .f32 := constant S_ .f32 0x7F800000#32
  let main_v1 : FVec F S50000x89 .f32 := broadcastInDim S50000x89 ![] bcast_S_S50000x89 main_cst
  let main_v2 : IVec S50000x89 1 := cmpf .olt main_v0 main_v1
  let main_c : IVec S_ 1 := constantI S_ 1 1#1
  let main_v3 : IVec S_ 1 := (fun x v => Host.reduce IntOp.andi x v reducesTo_S50000x89_S_d0_1 h_S_) main_v2 main_c
  let main_v4 : FVec F S89x128 .f32 := Host.absf main_arg2
  let main_cst_0 : FVec F S_ .f32 := constant S_ .f32 0x7F800000#32
  let main_v5 : FVec F S89x128 .f32 := broadcastInDim S89x128 ![] bcast_S_S89x128 main_cst_0
  let main_v6 : IVec S89x128 1 := cmpf .olt main_v4 main_v5
  let main_c_1 : IVec S_ 1 := constantI S_ 1 1#1
  let main_v7 : IVec S_ 1 := (fun x v => Host.reduce IntOp.andi x v reducesTo_S89x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x89 : Shape := ⟨2, ![50000, 89]⟩
abbrev S2x800000 : Shape := ⟨2, ![2, 800000]⟩
abbrev S89x128 : Shape := ⟨2, ![89, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x89 : Shape := ⟨2, ![5000, 89]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩

abbrev nBuf : Space → Nat
  | .hbm => 79
  | .vmem => 28
  | .smem => 0
  | _ => 0

abbrev bufTy : (tb : Table) → Fin (tcTables nBuf tb) → BufTy
  | .hbm, ⟨0, _⟩ => ⟨S50000x89, .f32⟩
  | .hbm, ⟨1, _⟩ => ⟨S2x800000, .i32⟩
  | .hbm, ⟨2, _⟩ => ⟨S89x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x1, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S800000x1, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S1x128, .f32⟩
  | .hbm, ⟨78, _⟩ => ⟨S50000x128, .f32⟩
  | .local _ .vmem, ⟨0, _⟩ => ⟨S5000x89, .f32⟩
  | .local _ .vmem, ⟨1, _⟩ => ⟨S5000x89, .f32⟩
  | .local _ .vmem, ⟨2, _⟩ => ⟨S89x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x89, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x89 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S89x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x89_S5000x89_0_0 : ∀ a, (![0, 0] : Fin 2 → Nat) a + S5000x89.size a ≤ S5000x89.size a
  h_S5000x89 : 0 < S5000x89.numel
  bitsLt_bf16_f32 : FTy.bits .bf16 < FTy.bits .f32
  inb_S89x128_S89x128_0_0 : ∀ a, (![0, 0] : Fin 2 → Nat) a + S89x128.size a ≤ S89x128.size a
  h_S89x128 : 0 < S89x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x89_S89x128_S5000x128_1_0_0_1_n_n_wf : DotDims.WF S5000x89 S89x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x89.size a ≤ S50000x89.size a
  hwx0_0 : ∀ i : grid0.Coords, EltTy.bits .f32 = 32 ∨ (Rect.block (s := S50000x89) S5000x89.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S89x128.size a ≤ S89x128.size a
  hwx0_1 : ∀ i : grid0.Coords, EltTy.bits .f32 = 32 ∨ (Rect.block (s := S89x128) S89x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x89_S89x128_S5000x128_1_0_0_1_n_n : DotDims S5000x89 S89x128 S5000x128 where
  lhsContracting := [1]
  rhsContracting := [0]
  lhsNonContracting := [0]
  rhsNonContracting := [1]
  lhsBatch := []
  rhsBatch := []
  wf := dot_S5000x89_S89x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x89.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S89x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x89 : Shape := ⟨2, ![50000, 89]⟩
abbrev S2x800000 : Shape := ⟨2, ![2, 800000]⟩
abbrev S89x128 : Shape := ⟨2, ![89, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x89, .f32⟩
  | .hbm, ⟨1, _⟩ => ⟨S2x800000, .i32⟩
  | .hbm, ⟨2, _⟩ => ⟨S89x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S800000x1, .f32⟩
  | .hbm, ⟨97, _⟩ => ⟨S800000x128, .f32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S50000, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | _, _ => ⟨S50000x89, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call1_cst : Ref sig .tc := ⟨.hbm, 111, rfl⟩
abbrev main_call1_v0 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x89_S89x128_S50000x128_1_0_0_1_n_n_wf : DotDims.WF S50000x89 S89x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x89_S89x128_S50000x128_1_0_0_1_n_n : DotDims S50000x89 S89x128 S50000x128 where
  lhsContracting := [1]
  rhsContracting := [0]
  lhsNonContracting := [0]
  rhsNonContracting := [1]
  lhsBatch := []
  rhsBatch := []
  wf := dot_S50000x89_S89x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/- A two-layer graph convolution, written as functions of whole arrays.

   One layer takes node features `x`, a weight matrix `w`, a bias `b` and the edge list `E` (row 0: source nodes,
   row 1: destination nodes) and returns  max(A + H · s + b, 0)  where
     H = x · w                                   (rows times columns, a plain sum over the inner axis),
     A[d, :] = Σ over edges e with dst e = d of  H[src e, :] · norm e        (scatter-add by destination),
     norm e  = dis[src e] · dis[dst e],   dis = (1 + in-degree)^(-1/2),   s = dis · dis  (the self loop's weight).
   The edge part (degree, `dis`, `norm`, the gather of rows, the scaling, the scatter-add) is kept as ONE function of the
   edge list and of `H`, spelt with the host operations themselves: nothing below ever looks inside a gather or a
   scatter-add. The dense parts are spelt entry by entry. -/
import proofs.«133835_j88064009437952_1_alg».proof.Proof.Gen.KernelIdeal
import Idealize.ShloMosaic.PureOps.Ideal

noncomputable section

namespace Cert.Gcn

open Idealize.ShloMosaic Cert.KernelIdeal Cert.KernelIdeal.Gen

/-! ## Entry indices -/

/-- Row `i 0` of a [50000, K] array, column `k`. -/
abbrev rowAt {K : Nat} (i : S50000x128.Idx) (k : Fin K) : (⟨2, ![50000, K]⟩ : Shape).Idx := fun a => match a with
  | ⟨0, _⟩ => ⟨(i 0).val, (i 0).isLt⟩
  | ⟨1, _⟩ => ⟨k.val, k.isLt⟩
/-- Row `k` of a [K, 128] array, column `i 1`. -/
abbrev colAt {K : Nat} (i : S50000x128.Idx) (k : Fin K) : (⟨2, ![K, 128]⟩ : Shape).Idx := fun a => match a with
  | ⟨0, _⟩ => ⟨k.val, k.isLt⟩
  | ⟨1, _⟩ => ⟨(i 1).val, (i 1).isLt⟩
/-- Entry (row of `i`, 0) of a [50000, 1] column. -/
abbrev rowOnly (i : S50000x128.Idx) : S50000x1.Idx := fun a => match a with
  | ⟨0, _⟩ => ⟨(i 0).val, (i 0).isLt⟩
  | ⟨1, _⟩ => ⟨0, Nat.zero_lt_one⟩
/-- Entry (0, column of `i`) of a [1, 128] row. -/
abbrev colOnly (i : S50000x128.Idx) : S1x128.Idx := fun a => match a with
  | ⟨0, _⟩ => ⟨0, Nat.zero_lt_one⟩
  | ⟨1, _⟩ => ⟨(i 1).val, (i 1).isLt⟩

/-! ## The dense parts, entry by entry (over the extended reals) -/

/-- The first layer's product: entry (r, c) is the sum over the 89 input features of x[r, k] · w[k, c]. -/
def mmA (x : Vec Ideal S50000x89 .f32) (w : Vec Ideal S89x128 .f32) : Vec Ideal S50000x128 .f32 :=
  fun i => ∑ k : Fin 89, x (rowAt i k) * w (colAt i k)

/-- The second layer's product: entry (r, c) is the sum over the 128 hidden features of x[r, k] · w[k, c]. -/
def mmB (x : Vec Ideal S50000x128 .f32) (w : Vec Ideal S128x128 .f32) : Vec Ideal S50000x128 .f32 :=
  fun i => ∑ k : Fin 128, x (rowAt i k) * w (colAt i k)

/-- A layer's epilogue: aggregated messages, plus the node's own features weighted by its column entry, plus the bias of
    the feature, clipped below at zero. -/
def comb (agg h : Vec Ideal S50000x128 .f32) (s : Vec Ideal S50000x1 .f32) (b : Vec Ideal S1x128 .f32) : Vec Ideal S50000x128 .f32 :=
  fun i => FloatOps.maximumf (F := Ideal) (FloatOps.addf (F := Ideal) (FloatOps.addf (F := Ideal) (agg i) (FloatOps.mulf (F := Ideal) (h i) (s (rowOnly i)))) (b (colOnly i)))
    (Scalar.ofBits (F := Ideal) .f32 0x00000000#32)

/-! ## The edge part, as the host computes it -/

variable {F : FTy → Type} [FloatOps F]

/-- The source node of every edge: row 0 of the edge list. -/
def src (E : (⟨S2x800000, .i32⟩ : BufTy).Contents (Elt F)) : (⟨S800000, .i32⟩ : BufTy).Contents (Elt F) :=
  shapeCast S800000 (extractStridedSlice S1x800000 ![0, 0] E slices_S2x800000_S1x800000_0_0) shapeCasts_S1x800000_S800000

/-- The destination node of every edge: row 1 of the edge list. -/
def dst (E : (⟨S2x800000, .i32⟩ : BufTy).Contents (Elt F)) : (⟨S800000, .i32⟩ : BufTy).Contents (Elt F) :=
  shapeCast S800000 (extractStridedSlice S1x800000 ![1, 0] E slices_S2x800000_S1x800000_1_0) shapeCasts_S1x800000_S800000

/-- A node index read the way array indexing reads it: a negative index counts from the end. -/
def wrap (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- (1 + in-degree)^(-1/2) per node: ones scattered onto the destinations, plus one, inverse square root. -/
def dis (E : (⟨S2x800000, .i32⟩ : BufTy).Contents (Elt F)) : (⟨S50000, .f32⟩ : BufTy).Contents (Elt F) :=
  Host.rsqrt (addf (broadcastInDim S50000 ![] bcast_S_S50000 (constant S_ .f32 0x3F800000#32))
    (Host.scatterAdd scatter_S50000_S800000x1_S800000_n_0_0_1 (broadcastInDim S50000 ![] bcast_S_S50000 (constant S_ .f32 0x00000000#32))
      (broadcastInDim S800000x1 ![0] bcast_S800000_S800000x1_0 (dst E))
      (broadcastInDim S800000 ![] bcast_S_S800000 (constant S_ .f32 0x3F800000#32))))

/-- The weight of every edge: dis at its source times dis at its destination. -/
def norm (E : (⟨S2x800000, .i32⟩ : BufTy).Contents (Elt F)) : (⟨S800000, .f32⟩ : BufTy).Contents (Elt F) :=
  mulf (Host.gather gather_S50000_S800000x1_S800000_n_0_n_n_0_1_1 (dis E) (broadcastInDim S800000x1 ![0] bcast_S800000_S800000x1_0 (wrap (src E))))
    (Host.gather gather_S50000_S800000x1_S800000_n_0_n_n_0_1_1 (dis E) (broadcastInDim S800000x1 ![0] bcast_S800000_S800000x1_0 (wrap (dst E))))

/-- The self loop's weight per node, dis squared, as a column. -/
def selfScale (E : (⟨S2x800000, .i32⟩ : BufTy).Contents (Elt F)) : (⟨S50000x1, .f32⟩ : BufTy).Contents (Elt F) :=
  shapeCast S50000x1 (mulf (dis E) (dis E)) shapeCasts_S50000_S50000x1

/-- The messages aggregated at every node: the source's row of `h`, times the edge's weight `nrm`, added up by destination. -/
def aggWith (E : (⟨S2x800000, .i32⟩ : BufTy).Contents (Elt F)) (nrm : (⟨S800000, .f32⟩ : BufTy).Contents (Elt F))
    (h : (⟨S50000x128, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 (dst E))
    (mulf (Host.gather gather_S50000x128_S800000x1_S800000x128_1_0_n_n_0_1_1128 h (broadcastInDim S800000x1 ![0] bcast_S800000_S800000x1_0 (wrap (src E))))
      (broadcastInDim S800000x128 ![0, 1] bcast_S800000x1_S800000x128_0_1 (broadcastInDim S800000x1 ![0] bcast_S800000_S800000x1_0 nrm)))

/-- The same with the edge weights of this edge list. -/
def agg (E : (⟨S2x800000, .i32⟩ : BufTy).Contents (Elt F)) (h : (⟨S50000x128, .f32⟩ : BufTy).Contents (Elt F)) :
    (⟨S50000x128, .f32⟩ : BufTy).Contents (Elt F) := aggWith E (norm E) h

/-- A bias vector as a one-row array. -/
def biasRow (b : (⟨S128, .f32⟩ : BufTy).Contents (Elt F)) : (⟨S1x128, .f32⟩ : BufTy).Contents (Elt F) :=
  shapeCast S1x128 b shapeCasts_S128_S1x128

/-! ## The two layers -/

/-- The first layer, from the 89 input features. -/
def layerA (E : (⟨S2x800000, .i32⟩ : BufTy).Contents (Elt Ideal)) (x : Vec Ideal S50000x89 .f32) (w : Vec Ideal S89x128 .f32)
    (b : Vec Ideal S128 .f32) : Vec Ideal S50000x128 .f32 :=
  comb (agg E (mmA x w)) (mmA x w) (selfScale E) (biasRow b)

/-- The second layer, from the 128 hidden features. -/
def layerB (E : (⟨S2x800000, .i32⟩ : BufTy).Contents (Elt Ideal)) (x : Vec Ideal S50000x128 .f32) (w : Vec Ideal S128x128 .f32)
    (b : Vec Ideal S128 .f32) : Vec Ideal S50000x128 .f32 :=
  comb (agg E (mmB x w)) (mmB x w) (selfScale E) (biasRow b)

/-- The network: the second layer of the first. -/
def net (x : Vec Ideal S50000x89 .f32) (E : (⟨S2x800000, .i32⟩ : BufTy).Contents (Elt Ideal)) (w1 : Vec Ideal S89x128 .f32)
    (b1 : Vec Ideal S128 .f32) (w2 : Vec Ideal S128x128 .f32) (b2 : Vec Ideal S128 .f32) : Vec Ideal S50000x128 .f32 :=
  layerB E (layerA E x w1 b1) w2 b2

end Cert.Gcn

end
-- ==== Proof.MatmulBlock.lean ====
/- The two product regions: after a region has run over its ten row blocks, its result array is the whole product. -/
import proofs.«133835_j88064009437952_1_alg».proof.Proof.Gen.KernelIdeal.Frame
import proofs.«133835_j88064009437952_1_alg».proof.Proof.Layer
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

/-! ## Shared -/

/-- The origin of a rank-2 block, written as a constant function. -/
theorem origin2 : (![0, 0] : Fin 2 → Nat) = fun _ => 0 := funext fun a => by fin_cases a <;> rfl

/-! ## Region 0: the 89-feature product -/

/-- Entry (row of `j`, k) of a [5000, 89] block. -/
abbrev lrowA (j : S5000x128.Idx) (k : Fin 89) : S5000x89.Idx := fun a => match a with
  | ⟨0, _⟩ => ⟨(j 0).val, (j 0).isLt⟩
  | ⟨1, _⟩ => ⟨k.val, k.isLt⟩
/-- Entry (k, column of `j`) of the [89, 128] weight block. -/
abbrev rcolA (j : S5000x128.Idx) (k : Fin 89) : S89x128.Idx := fun a => match a with
  | ⟨0, _⟩ => ⟨k.val, k.isLt⟩
  | ⟨1, _⟩ => ⟨(j 1).val, (j 1).isLt⟩

/-- Where the product reads its operands for the entry `j` of the block and the contraction index `q`, one coordinate
    at a time: the left operand at (row of `j`, `q`), the right operand at (`q`, column of `j`). -/
theorem lhsA_0 (j : S5000x128.Idx) (q : dot_S5000x89_S89x128_S5000x128_1_0_0_1_n_n.contr.Idx) :
    (dot_S5000x89_S89x128_S5000x128_1_0_0_1_n_n.lhsIdx j q 0).val = (j 0).val := by
  unfold DotDims.lhsIdx
  rw [dif_neg (show ¬(0 : Fin S5000x89.rank) ∈ dot_S5000x89_S89x128_S5000x128_1_0_0_1_n_n.lhsBatch by decide), dif_pos (show (0 : Fin S5000x89.rank) ∈ dot_S5000x89_S89x128_S5000x128_1_0_0_1_n_n.lhsNonContracting by decide)]
  rfl
theorem lhsA_1 (j : S5000x128.Idx) (q : dot_S5000x89_S89x128_S5000x128_1_0_0_1_n_n.contr.Idx) :
    (dot_S5000x89_S89x128_S5000x128_1_0_0_1_n_n.lhsIdx j q 1).val = (q ⟨0, by decide⟩).val :=
  dot_S5000x89_S89x128_S5000x128_1_0_0_1_n_n.lhsIdx_val_of_single rfl j q
theorem rhsA_0 (j : S5000x128.Idx) (q : dot_S5000x89_S89x128_S5000x128_1_0_0_1_n_n.contr.Idx) :
    (dot_S5000x89_S89x128_S5000x128_1_0_0_1_n_n.rhsIdx j q 0).val = (q ⟨0, by decide⟩).val :=
  dot_S5000x89_S89x128_S5000x128_1_0_0_1_n_n.rhsIdx_val_of_single rfl j q
theorem rhsA_1 (j : S5000x128.Idx) (q : dot_S5000x89_S89x128_S5000x128_1_0_0_1_n_n.contr.Idx) :
    (dot_S5000x89_S89x128_S5000x128_1_0_0_1_n_n.rhsIdx j q 1).val = (j 1).val := by
  unfold DotDims.rhsIdx
  rw [dif_neg (show ¬(1 : Fin S89x128.rank) ∈ dot_S5000x89_S89x128_S5000x128_1_0_0_1_n_n.rhsBatch by decide), dif_pos (show (1 : Fin S89x128.rank) ∈ dot_S5000x89_S89x128_S5000x128_1_0_0_1_n_n.rhsNonContracting by decide)]
  rfl

/-- The body's payload at an entry of the block: the sum over the 89 features of row entry times column entry
    (over the extended reals the narrowing of the operands is the identity and the accumulator starts at zero). -/
theorem payA_apply (x0 : Vec Ideal S5000x89 .f32) (x1 : Vec Ideal S89x128 .f32) (j : S5000x128.Idx) :
    k0_pay1 (F := Ideal) x0 x1 j = ∑ k : Fin 89, x0 (lrowA j k) * x1 (rcolA j k) := by
  unfold k0_pay1
  show FloatOps.matmul dot_S5000x89_S89x128_S5000x128_1_0_0_1_n_n none x0 x1 (constant (F := Ideal) S5000x128 .f32 0x00000000#32) j = _
  rw [Ideal.matmul_constant_zero_apply, ← Equiv.sum_comp (ValueIdx.contrEquiv1 dot_S5000x89_S89x128_S5000x128_1_0_0_1_n_n 89 rfl rfl).symm]
  refine Finset.sum_congr rfl fun k _ => ?_
  have hk := ValueIdx.contrEquiv1_symm_val dot_S5000x89_S89x128_S5000x128_1_0_0_1_n_n 89 rfl rfl k
  have el : dot_S5000x89_S89x128_S5000x128_1_0_0_1_n_n.lhsIdx j ((ValueIdx.contrEquiv1 dot_S5000x89_S89x128_S5000x128_1_0_0_1_n_n 89 rfl rfl).symm k) = lrowA j k := funext fun a => Fin.ext (by
    match a with
    | ⟨0, _⟩ => exact lhsA_0 _ _
    | ⟨1, _⟩ => exact (lhsA_1 _ _).trans hk)
  have er : dot_S5000x89_S89x128_S5000x128_1_0_0_1_n_n.rhsIdx j ((ValueIdx.contrEquiv1 dot_S5000x89_S89x128_S5000x128_1_0_0_1_n_n 89 rfl rfl).symm k) = rcolA j k := funext fun a => Fin.ext (by
    match a with
    | ⟨0, _⟩ => exact (rhsA_0 _ _).trans hk
    | ⟨1, _⟩ => exact rhsA_1 _ _)
  rw [el, er]

/-- The index maps over the ten points: the input rows move with the output rows, every other block index is 0,
    and the row-block index stays below ten. -/
theorem idxA : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem ontoA : ∀ q : Fin 10, ∃ t : Fin cfg0.N, win0_2.index t (0 : Fin 2) = q.val :=
  (by decide +kernel : ∀ q : Fin 10, ∃ t : Fin grid0.N, win0_2.index t (0 : Fin 2) = q.val)

/-- A sum of products whose factors sit at the row and column entries of `i` is the product's entry `i`. -/
theorem sum_eq_mmA (x : Vec Ideal S50000x89 .f32) (w : Vec Ideal S89x128 .f32) (i : S50000x128.Idx)
    (l : Fin 89 → S50000x89.Idx) (r : Fin 89 → S89x128.Idx)
    (hl : ∀ k, l k = Cert.Gcn.rowAt i k) (hr : ∀ k, r k = Cert.Gcn.colAt i k) :
    ∑ k : Fin 89, x (l k) * w (r k) = Cert.Gcn.mmA x w i := by
  unfold Cert.Gcn.mmA
  exact Finset.sum_congr rfl fun k _ => by rw [hl k, hr k]

/-- What point `t` writes back is block `t` of the product of the two arrays. -/
theorem flushedA (c : Dev nD) (t : Fin cfg0.N) :
    (dat0 (F := Ideal) V c).flushed 2 t = ((cfg0.win 2).blk t).view.read (Elt Ideal) (Cert.Gcn.mmA (V c main_arg0) (V c main_arg2)) := by
  show (cfg0.win 2).cut (grid0.coords t) ((dat0 (F := Ideal) V c).after 2 t) = _
  rw [after0_2]
  unfold out0_2
  rw [View.canon_unit_zero origin2]
  simp only [View.ld_unit_zero (S := S5000x89) origin2, View.ld_unit_zero (S := S89x128) origin2]
  funext j
  refine (payA_apply (iblk0 V c 0 t) (iblk0 V c 1 t) j).trans ?_
  obtain ⟨e0, e1, e2, e3, e4, e5⟩ := idxA t
  refine sum_eq_mmA (V c main_arg0) (V c main_arg2) (((cfg0.win 2).blk t).view.emb j)
    (fun k => ((cfg0.win 0).blk t).view.emb (lrowA j k)) (fun k => ((cfg0.win 1).blk t).view.emb (rcolA j k)) (fun k => ?_) (fun k => ?_)
  · funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 89 + 1 * k.val = k.val; omega
  · funext a; apply Fin.ext
    match a with
    | ⟨0, _⟩ => show win0_1.index t (0 : Fin 2) * 89 + 1 * k.val = k.val; omega
    | ⟨1, _⟩ => show win0_1.index t (1 : Fin 2) * 128 + 1 * (j 1).val = win0_2.index t (1 : Fin 2) * 128 + 1 * (j 1).val; omega

/-- An entry of the array lies in point `t`'s block exactly when each coordinate lies in the block's range on its axis. -/
theorem mem_blkA (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- The ten blocks cover the array: row `r` lies in row block `r / 5000`, and every block spans all 128 columns. -/
theorem coverA (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := ontoA ⟨(i 0).val / 5000, by omega⟩
  have q0 : win0_2.index t (0 : Fin 2) = (i 0).val / 5000 := ht
  obtain ⟨e0, e1, e2, e3, e4, e5⟩ := idxA t
  refine ⟨t, flush0_2 t, ?_⟩
  rw [mem_blkA]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0: the result array ends as the product of the two arrays the region found. -/
theorem final0 (c : Dev nD) : (dat0 (F := Ideal) V c).arrAt 2 cfg0.N = Cert.Gcn.mmA (V c main_arg0) (V c main_arg2) :=
  (dat0 (F := Ideal) V c).arrAt_eq_of_cover 2 (Cert.Gcn.mmA (V c main_arg0) (V c main_arg2)) (fun t _ => flushedA V c t) coverA

/-! ## Region 2: the 128-feature product -/

/-- Entry (row of `j`, k) of a [5000, 128] block. -/
abbrev lrowB (j : S5000x128.Idx) (k : Fin 128) : S5000x128.Idx := fun a => match a with
  | ⟨0, _⟩ => ⟨(j 0).val, (j 0).isLt⟩
  | ⟨1, _⟩ => ⟨k.val, k.isLt⟩
/-- Entry (k, column of `j`) of the [128, 128] weight block. -/
abbrev rcolB (j : S5000x128.Idx) (k : Fin 128) : S128x128.Idx := fun a => match a with
  | ⟨0, _⟩ => ⟨k.val, k.isLt⟩
  | ⟨1, _⟩ => ⟨(j 1).val, (j 1).isLt⟩

/-- Where the product reads its operands for the entry `j` of the block and the contraction index `q`, one coordinate
    at a time: the left operand at (row of `j`, `q`), the right operand at (`q`, column of `j`). -/
theorem lhsB_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhsB_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhsB_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an entry of the block: the sum over the 128 hidden features of row entry times column entry
    (the cast of the row block to its own shape changes nothing, the narrowing of the operands is the identity over the
    extended reals, and the accumulator starts at zero). -/
theorem payB_apply (x0 : Vec Ideal S5000x128 .f32) (x1 : Vec Ideal S128x128 .f32) (j : S5000x128.Idx) :
    k2_pay1 (F := Ideal) x0 x1 j = ∑ k : Fin 128, x0 (lrowB j k) * x1 (rcolB j k) := by
  unfold k2_pay1
  show FloatOps.matmul dot_S5000x128_S128x128_S5000x128_1_0_0_1_n_n none (shapeCast S5000x128 x0 shapeCasts_S5000x128_S5000x128) x1 (constant (F := Ideal) S5000x128 .f32 0x00000000#32) j = _
  rw [shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrowB j k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx j ((ValueIdx.contrEquiv1 dot_S5000x128_S128x128_S5000x128_1_0_0_1_n_n 128 rfl rfl).symm k) = rcolB j k := funext fun a => Fin.ext (by
    match a with
    | ⟨0, _⟩ => exact (rhsB_0 _ _).trans hk
    | ⟨1, _⟩ => exact rhsB_1 _ _)
  rw [el, er]

/-- The index maps over the ten points: the input rows move with the output rows, every other block index is 0,
    and the row-block index stays below ten. -/
theorem idxB : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem ontoB : ∀ q : Fin 10, ∃ t : Fin cfg2.N, win2_2.index t (0 : Fin 2) = q.val :=
  (by decide +kernel : ∀ q : Fin 10, ∃ t : Fin grid2.N, win2_2.index t (0 : Fin 2) = q.val)

/-- A sum of products whose factors sit at the row and column entries of `i` is the product's entry `i`. -/
theorem sum_eq_mmB (x : Vec Ideal S50000x128 .f32) (w : Vec Ideal S128x128 .f32) (i : S50000x128.Idx)
    (l : Fin 128 → S50000x128.Idx) (r : Fin 128 → S128x128.Idx)
    (hl : ∀ k, l k = Cert.Gcn.rowAt i k) (hr : ∀ k, r k = Cert.Gcn.colAt i k) :
    ∑ k : Fin 128, x (l k) * w (r k) = Cert.Gcn.mmB x w i := by
  unfold Cert.Gcn.mmB
  exact Finset.sum_congr rfl fun k _ => by rw [hl k, hr k]

/-- What point `t` writes back is block `t` of the product of the two arrays. -/
theorem flushedB (c : Dev nD) (t : Fin cfg2.N) :
    (dat2 (F := Ideal) V c).flushed 2 t = ((cfg2.win 2).blk t).view.read (Elt Ideal) (Cert.Gcn.mmB (V c main_v43) (V c main_arg4)) := by
  show (cfg2.win 2).cut (grid2.coords t) ((dat2 (F := Ideal) V c).after 2 t) = _
  rw [after2_2]
  unfold out2_2
  rw [View.canon_unit_zero origin2]
  simp only [View.ld_unit_zero (S := S5000x128) origin2, View.ld_unit_zero (S := S128x128) origin2]
  funext j
  refine (payB_apply (iblk2 V c 0 t) (iblk2 V c 1 t) j).trans ?_
  obtain ⟨e0, e1, e2, e3, e4, e5⟩ := idxB t
  refine sum_eq_mmB (V c main_v43) (V c main_arg4) (((cfg2.win 2).blk t).view.emb j)
    (fun k => ((cfg2.win 0).blk t).view.emb (lrowB j k)) (fun k => ((cfg2.win 1).blk t).view.emb (rcolB j k)) (fun k => ?_) (fun k => ?_)
  · funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An entry of the array lies in point `t`'s block exactly when each coordinate lies in the block's range on its axis. -/
theorem mem_blkB (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- The ten blocks cover the array: row `r` lies in row block `r / 5000`, and every block spans all 128 columns. -/
theorem coverB (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := ontoB ⟨(i 0).val / 5000, by omega⟩
  have q0 : win2_2.index t (0 : Fin 2) = (i 0).val / 5000 := ht
  obtain ⟨e0, e1, e2, e3, e4, e5⟩ := idxB t
  refine ⟨t, flush2_2 t, ?_⟩
  rw [mem_blkB]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- Region 2: the same for the second layer's product. -/
theorem final2 (c : Dev nD) : (dat2 (F := Ideal) V c).arrAt 2 cfg2.N = Cert.Gcn.mmB (V c main_v43) (V c main_arg4) :=
  (dat2 (F := Ideal) V c).arrAt_eq_of_cover 2 (Cert.Gcn.mmB (V c main_v43) (V c main_arg4)) (fun t _ => flushedB V c t) coverB

end Cert.KernelIdeal.Blocks

end
-- ==== Proof.CombineBlock.lean ====
/- The two epilogue regions: after a region has run over its ten row blocks, its result array is the layer's epilogue of the
   four arrays the region found.

   Each region computes  out = max(agg + h · s + b, 0)  on blocks of 5000 rows: at a grid point the body holds rows
   5000·q … 5000·q + 4999 of `agg` and `h` (all 128 columns), the same rows of the one-column `s`, and the whole one-row `b`;
   it spreads the column along the lanes and the row along the rows and works entry by entry. So the block it writes back is
   the block of the epilogue taken over the whole arrays, and the ten blocks tile the [50000, 128] result. -/
import proofs.«133835_j88064009437952_1_alg».proof.Proof.Gen.KernelIdeal.Frame
import proofs.«133835_j88064009437952_1_alg».proof.Proof.Layer
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Blocks

open Cert.KernelIdeal Cert.KernelIdeal.Gen

/-! ## Inside one block -/

/-- Entry (row of `j`, 0) of a block's [5000, 1] column. -/
abbrev rowIn (j : S5000x128.Idx) : S5000x1.Idx := fun a => match a with
  | ⟨0, _⟩ => ⟨(j 0).val, (j 0).isLt⟩
  | ⟨1, _⟩ => ⟨0, Nat.zero_lt_one⟩
/-- Entry (0, column of `j`) of the [1, 128] row. -/
abbrev colIn (j : S5000x128.Idx) : S1x128.Idx := fun a => match a with
  | ⟨0, _⟩ => ⟨0, Nat.zero_lt_one⟩
  | ⟨1, _⟩ => ⟨(j 1).val, (j 1).isLt⟩

/-- A column spread along the 128 lanes reads, at (p, q), the column's entry (p, 0). -/
theorem spreadCol_apply (v : S5000x1.Idx → Ideal .f32) (h : S5000x1.Broadcasts S5000x128) (j : S5000x128.Idx) :
    broadcastTo S5000x128 v h j = v (rowIn j) := by
  refine broadcastTo_apply v h j (rowIn j) fun a => ?_
  match a with
  | ⟨0, _⟩ => rfl
  | ⟨1, _⟩ => rfl

/-- A row spread along the 5000 rows reads, at (p, q), the row's entry (0, q). -/
theorem spreadRow_apply (v : S1x128.Idx → Ideal .f32) (h : S1x128.Broadcasts S5000x128) (j : S5000x128.Idx) :
    broadcastTo S5000x128 v h j = v (colIn j) := by
  refine broadcastTo_apply v h j (colIn j) fun a => ?_
  match a with
  | ⟨0, _⟩ => rfl
  | ⟨1, _⟩ => rfl

/-- The body's result at an entry `j` of the block: the two casts to the same shape are the identity, the two spreads read
    the column at `j`'s row and the row at `j`'s column, and everything else acts entry by entry. -/
theorem body1_apply (x0 x1 : Vec Ideal S5000x128 .f32) (x2 : Vec Ideal S5000x1 .f32) (x3 : Vec Ideal S1x128 .f32) (j : S5000x128.Idx) :
    k1_pay1 x0 x1 x2 x3 j = FloatOps.maximumf (F := Ideal) (FloatOps.addf (F := Ideal) (FloatOps.addf (F := Ideal) (x0 j)
      (FloatOps.mulf (F := Ideal) (x1 j) (x2 (rowIn j)))) (x3 (colIn j))) (Scalar.ofBits (F := Ideal) .f32 0x00000000#32) := by
  unfold k1_pay1
  simp only [shapeCast_self]
  show FloatOps.maximumf (F := Ideal) (FloatOps.addf (F := Ideal) (FloatOps.addf (F := Ideal) (x0 j)
      (FloatOps.mulf (F := Ideal) (x1 j) (broadcastTo S5000x128 x2 broadcasts_S5000x1_S5000x128 j)))
      (broadcastTo S5000x128 x3 broadcasts_S1x128_S5000x128 j)) _ = _
  rw [spreadCol_apply, spreadRow_apply, ValueIdx.broadcast_apply]

/-- One entry of a block: when the four loaded blocks hold, at `j`, the arrays' entries at `i` (the column at `i`'s row, the row
    at `i`'s column), the body's result at `j` is the layer's epilogue at `i`. -/
theorem body1_eq_comb (a0 a1 : Vec Ideal S50000x128 .f32) (s : Vec Ideal S50000x1 .f32) (b : Vec Ideal S1x128 .f32)
    (x0 x1 : Vec Ideal S5000x128 .f32) (x2 : Vec Ideal S5000x1 .f32) (x3 : Vec Ideal S1x128 .f32) (j : S5000x128.Idx) (i : S50000x128.Idx)
    (h0 : x0 j = a0 i) (h1 : x1 j = a1 i) (h2 : x2 (rowIn j) = s (Cert.Gcn.rowOnly i)) (h3 : x3 (colIn j) = b (Cert.Gcn.colOnly i)) :
    k1_pay1 x0 x1 x2 x3 j = Cert.Gcn.comb a0 a1 s b i := by
  rw [body1_apply, h0, h1, h2, h3]
  rfl

/-- The second epilogue's body is the same tree of operations as the first's. -/
theorem body3_eq_body1 (x0 x1 : Vec Ideal S5000x128 .f32) (x2 : Vec Ideal S5000x1 .f32) (x3 : Vec Ideal S1x128 .f32) :
    k3_pay1 x0 x1 x2 x3 = k1_pay1 x0 x1 x2 x3 := rfl

/-- So it too gives the layer's epilogue, entry by entry. -/
theorem body3_eq_comb (a0 a1 : Vec Ideal S50000x128 .f32) (s : Vec Ideal S50000x1 .f32) (b : Vec Ideal S1x128 .f32)
    (x0 x1 : Vec Ideal S5000x128 .f32) (x2 : Vec Ideal S5000x1 .f32) (x3 : Vec Ideal S1x128 .f32) (j : S5000x128.Idx) (i : S50000x128.Idx)
    (h0 : x0 j = a0 i) (h1 : x1 j = a1 i) (h2 : x2 (rowIn j) = s (Cert.Gcn.rowOnly i)) (h3 : x3 (colIn j) = b (Cert.Gcn.colOnly i)) :
    k3_pay1 x0 x1 x2 x3 j = Cert.Gcn.comb a0 a1 s b i := by
  rw [body3_eq_body1]
  exact body1_eq_comb a0 a1 s b x0 x1 x2 x3 j i h0 h1 h2 h3

/-- The body loads and stores its whole buffers: offsets (0, 0). -/
theorem zeroOffsets : (![0, 0] : Fin 2 → Nat) = fun _ => 0 := funext fun a => by fin_cases a <;> rfl

variable (V : (c : Dev nD) → (b : Ref sig .tc) → Buf (Elt Ideal) ((c : Thread nD τ).loc b))

/-! ## Region 1 -/

/-- The index maps of region 1 over its ten points: the three row-tiled inputs sit at the output's row block, column block 0;
    the bias row sits at block (0, 0); the output's column block is 0 and its row block is at most 9. -/
theorem blockIdx1 : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks is some point's. -/
theorem blockOnto1 : ∀ q : Fin 10, ∃ t : Fin cfg1.N, win1_4.index t (0 : Fin 2) = q.val :=
  (by decide +kernel : ∀ q : Fin 10, ∃ t : Fin grid1.N, win1_4.index t (0 : Fin 2) = q.val)

/-- What point `t` writes back is block `t` of the epilogue of the arrays the region found: entry (p, q) of the output block is
    row (block · 5000 + p), column q of the array, and there the inputs' blocks hold the same row and column of their arrays. -/
theorem written1_eq (c : Dev nD) (t : Fin cfg1.N) :
    (dat1 (F := Ideal) V c).flushed 4 t = ((cfg1.win 4).blk t).view.read (Elt Ideal)
      (Cert.Gcn.comb (V c main_v41) (V c main_v28) (V c main_v27) (V c main_v42)) := by
  show (cfg1.win 4).cut (grid1.coords t) ((dat1 (F := Ideal) V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets]
  obtain ⟨e00, e01, e10, e11, e20, e21, e30, e31, e41, -⟩ := blockIdx1 t
  funext j
  show k1_pay1 (iblk1 V c 0 t) (iblk1 V c 1 t) (iblk1 V c 2 t) (iblk1 V c 3 t) j
    = Cert.Gcn.comb (V c main_v41) (V c main_v28) (V c main_v27) (V c main_v42) (((cfg1.win 4).blk t).view.emb j)
  refine body1_eq_comb _ _ _ _ _ _ _ _ j _ ?_ ?_ ?_ ?_
  · show V c main_v41 (((cfg1.win 0).blk t).view.emb j) = V c main_v41 (((cfg1.win 4).blk t).view.emb j)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · show V c main_v28 (((cfg1.win 1).blk t).view.emb j) = V c main_v28 (((cfg1.win 4).blk t).view.emb j)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · show V c main_v27 (((cfg1.win 2).blk t).view.emb (rowIn j)) = V c main_v27 (Cert.Gcn.rowOnly (((cfg1.win 4).blk t).view.emb j))
    refine congrArg _ (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v42 (((cfg1.win 3).blk t).view.emb (colIn j)) = V c main_v42 (Cert.Gcn.colOnly (((cfg1.win 4).blk t).view.emb j))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the result array is in point `t`'s block iff each coordinate is in the block's range on its axis. -/
theorem mem_block1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- The ten row blocks tile the result array: row `r` lies in block `r / 5000`, and every block is all 128 columns wide. -/
theorem tiles1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := blockOnto1 ⟨(i 0).val / 5000, by omega⟩
  have q0 : win1_4.index t (0 : Fin 2) = (i 0).val / 5000 := ht
  obtain ⟨-, -, -, -, -, -, -, -, e41, -⟩ := blockIdx1 t
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- Region 1: the first layer's epilogue. -/
theorem final1 (c : Dev nD) : (dat1 (F := Ideal) V c).arrAt 4 cfg1.N = Cert.Gcn.comb (V c main_v41) (V c main_v28) (V c main_v27) (V c main_v42) :=
  (dat1 (F := Ideal) V c).arrAt_eq_of_cover 4 (Cert.Gcn.comb (V c main_v41) (V c main_v28) (V c main_v27) (V c main_v42))
    (fun t _ => written1_eq V c t) tiles1

/-! ## Region 3 -/

/-- The index maps of region 3 over its ten points: the three row-tiled inputs sit at the output's row block, column block 0;
    the bias row sits at block (0, 0); the output's column block is 0 and its row block is at most 9. -/
theorem blockIdx3 : ∀ t : Fin cfg3.N, win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Every one of the ten row blocks is some point's. -/
theorem blockOnto3 : ∀ q : Fin 10, ∃ t : Fin cfg3.N, win3_4.index t (0 : Fin 2) = q.val :=
  (by decide +kernel : ∀ q : Fin 10, ∃ t : Fin grid3.N, win3_4.index t (0 : Fin 2) = q.val)

/-- What point `t` writes back is block `t` of the epilogue of the arrays the region found. -/
theorem written3_eq (c : Dev nD) (t : Fin cfg3.N) :
    (dat3 (F := Ideal) V c).flushed 4 t = ((cfg3.win 4).blk t).view.read (Elt Ideal)
      (Cert.Gcn.comb (V c main_v57) (V c main_v44) (V c main_v27) (V c main_v58)) := by
  show (cfg3.win 4).cut (grid3.coords t) ((dat3 (F := Ideal) V c).after 4 t) = _
  rw [after3_4]
  unfold out3_4
  rw [View.canon_unit_zero zeroOffsets]
  simp only [View.ld_unit_zero (S := S5000x128) zeroOffsets, View.ld_unit_zero (S := S5000x1) zeroOffsets,
    View.ld_unit_zero (S := S1x128) zeroOffsets]
  obtain ⟨e00, e01, e10, e11, e20, e21, e30, e31, e41, -⟩ := blockIdx3 t
  funext j
  show k3_pay1 (iblk3 V c 0 t) (iblk3 V c 1 t) (iblk3 V c 2 t) (iblk3 V c 3 t) j
    = Cert.Gcn.comb (V c main_v57) (V c main_v44) (V c main_v27) (V c main_v58) (((cfg3.win 4).blk t).view.emb j)
  refine body3_eq_comb _ _ _ _ _ _ _ _ j _ ?_ ?_ ?_ ?_
  · show V c main_v57 (((cfg3.win 0).blk t).view.emb j) = V c main_v57 (((cfg3.win 4).blk t).view.emb j)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v44 (((cfg3.win 1).blk t).view.emb j) = V c main_v44 (((cfg3.win 4).blk t).view.emb j)
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  · show V c main_v27 (((cfg3.win 2).blk t).view.emb (rowIn j)) = V c main_v27 (Cert.Gcn.rowOnly (((cfg3.win 4).blk t).view.emb j))
    refine congrArg _ (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v58 (((cfg3.win 3).blk t).view.emb (colIn j)) = V c main_v58 (Cert.Gcn.colOnly (((cfg3.win 4).blk t).view.emb j))
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An index of the result array is in point `t`'s block iff each coordinate is in the block's range on its axis. -/
theorem mem_block3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v59).slice (win3_4.rect t)).set ↔ _
  rw [View.set_slice_whole, Rect.mem_set_unit]
  exact Iff.rfl

/-- The ten row blocks tile the result array: row `r` lies in block `r / 5000`, and every block is all 128 columns wide. -/
theorem tiles3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := blockOnto3 ⟨(i 0).val / 5000, by omega⟩
  have q0 : win3_4.index t (0 : Fin 2) = (i 0).val / 5000 := ht
  obtain ⟨-, -, -, -, -, -, -, -, e41, -⟩ := blockIdx3 t
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- Region 3: the second layer's epilogue. -/
theorem final3 (c : Dev nD) : (dat3 (F := Ideal) V c).arrAt 4 cfg3.N = Cert.Gcn.comb (V c main_v57) (V c main_v44) (V c main_v27) (V c main_v58) :=
  (dat3 (F := Ideal) V c).arrAt_eq_of_cover 4 (Cert.Gcn.comb (V c main_v57) (V c main_v44) (V c main_v27) (V c main_v58))
    (fun t _ => written3_eq V c t) tiles3

end Cert.KernelIdeal.Blocks

end
-- ==== Proof.KFold.lean ====
/- The kernel program's result array, read back through @main: from the launch memory through the first host stretch
   (edge lists, degree normalisation, edge weights), the first product region, the host's gather / scale / scatter-add, the
   first epilogue region, the second product region, the host's second gather / scale / scatter-add and the last epilogue
   region. At every boundary the buffers a later step reads are named as functions of the six arguments. -/
import proofs.«133835_j88064009437952_1_alg».proof.Proof.Gen.KernelIdeal.Frame
import proofs.«133835_j88064009437952_1_alg».proof.Proof.Layer
import proofs.«133835_j88064009437952_1_alg».proof.Proof.MatmulBlock
import proofs.«133835_j88064009437952_1_alg».proof.Proof.CombineBlock
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen Cert.KernelIdeal.Blocks

variable (m : (ℓ : Loc nD τ sig) → Buf (Elt Ideal) ℓ) (ρ : Dev nD → PrngReg)

/-! ## After the first host stretch -/

theorem W1_v1 (c : Dev nD) : W1 m ρ c (Proc.devRef .tc main_v1) = Cert.Gcn.src (m ((c : Thread nD τ).loc main_arg1)) := by
  show StableHlo.after hostOps0 (W0 m ρ c) (Proc.devRef .tc main_v1) = _
  after_results
  rfl

theorem W1_v3 (c : Dev nD) : W1 m ρ c (Proc.devRef .tc main_v3) = Cert.Gcn.dst (m ((c : Thread nD τ).loc main_arg1)) := by
  show StableHlo.after hostOps0 (W0 m ρ c) (Proc.devRef .tc main_v3) = _
  after_results
  rfl

theorem W1_v25 (c : Dev nD) : W1 m ρ c (Proc.devRef .tc main_v25) = Cert.Gcn.norm (m ((c : Thread nD τ).loc main_arg1)) := by
  show StableHlo.after hostOps0 (W0 m ρ c) (Proc.devRef .tc main_v25) = _
  after_results_simp
  rfl

theorem W1_v27 (c : Dev nD) : W1 m ρ c (Proc.devRef .tc main_v27) = Cert.Gcn.selfScale (m ((c : Thread nD τ).loc main_arg1)) := by
  show StableHlo.after hostOps0 (W0 m ρ c) (Proc.devRef .tc main_v27) = _
  after_results_simp
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

/-! ## After the first product region: its result is the product, everything else is as it was -/

theorem W2_v28 (c : Dev nD) : W2 m ρ c (Proc.devRef .tc main_v28)
    = Cert.Gcn.mmA (m ((c : Thread nD τ).loc main_arg0)) (m ((c : Thread nD τ).loc main_arg2)) := by
  refine (W2_arr m ρ c 2).trans ((final0 (V1 m ρ) c).trans ?_)
  rw [show V1 m ρ c main_arg0 = m ((c : Thread nD τ).loc main_arg0) from W1_arg0 m ρ c,
      show V1 m ρ c main_arg2 = m ((c : Thread nD τ).loc main_arg2) from W1_arg2 m ρ c]

theorem W2_v1 (c : Dev nD) : W2 m ρ c (Proc.devRef .tc main_v1) = Cert.Gcn.src (m ((c : Thread nD τ).loc main_arg1)) :=
  (W2_of_ne m ρ c main_v1 (by decide)).trans (W1_v1 m ρ c)
theorem W2_v3 (c : Dev nD) : W2 m ρ c (Proc.devRef .tc main_v3) = Cert.Gcn.dst (m ((c : Thread nD τ).loc main_arg1)) :=
  (W2_of_ne m ρ c main_v3 (by decide)).trans (W1_v3 m ρ c)
theorem W2_v25 (c : Dev nD) : W2 m ρ c (Proc.devRef .tc main_v25) = Cert.Gcn.norm (m ((c : Thread nD τ).loc main_arg1)) :=
  (W2_of_ne m ρ c main_v25 (by decide)).trans (W1_v25 m ρ c)
theorem W2_v27 (c : Dev nD) : W2 m ρ c (Proc.devRef .tc main_v27) = Cert.Gcn.selfScale (m ((c : Thread nD τ).loc main_arg1)) :=
  (W2_of_ne m ρ c main_v27 (by decide)).trans (W1_v27 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## After the second host stretch: the messages of the first layer, aggregated -/

theorem W3_v41 (c : Dev nD) : W3 m ρ c (Proc.devRef .tc main_v41)
    = Cert.Gcn.agg (m ((c : Thread nD τ).loc main_arg1)) (Cert.Gcn.mmA (m ((c : Thread nD τ).loc main_arg0)) (m ((c : Thread nD τ).loc main_arg2))) := by
  show StableHlo.after hostOps1 (W2 m ρ c) (Proc.devRef .tc main_v41) = _
  after_results_simp
  rw [W2_v1, W2_v3, W2_v25, W2_v28]
  rfl

theorem W3_v42 (c : Dev nD) : W3 m ρ c (Proc.devRef .tc main_v42) = Cert.Gcn.biasRow (m ((c : Thread nD τ).loc main_arg3)) := by
  show StableHlo.after hostOps1 (W2 m ρ c) (Proc.devRef .tc main_v42) = _
  after_results_simp
  rw [W2_arg3]
  rfl

theorem W3_v28 (c : Dev nD) : W3 m ρ c (Proc.devRef .tc main_v28) = Cert.Gcn.mmA (m ((c : Thread nD τ).loc main_arg0)) (m ((c : Thread nD τ).loc main_arg2)) :=
  (show StableHlo.after hostOps1 (W2 m ρ c) (Proc.devRef .tc main_v28) = W2 m ρ c (Proc.devRef .tc main_v28) by after_results).trans (W2_v28 m ρ c)
theorem W3_v27 (c : Dev nD) : W3 m ρ c (Proc.devRef .tc main_v27) = Cert.Gcn.selfScale (m ((c : Thread nD τ).loc main_arg1)) :=
  (show StableHlo.after hostOps1 (W2 m ρ c) (Proc.devRef .tc main_v27) = W2 m ρ c (Proc.devRef .tc main_v27) by after_results).trans (W2_v27 m ρ c)
theorem W3_v1 (c : Dev nD) : W3 m ρ c (Proc.devRef .tc main_v1) = Cert.Gcn.src (m ((c : Thread nD τ).loc main_arg1)) :=
  (show StableHlo.after hostOps1 (W2 m ρ c) (Proc.devRef .tc main_v1) = W2 m ρ c (Proc.devRef .tc main_v1) by after_results).trans (W2_v1 m ρ c)
theorem W3_v3 (c : Dev nD) : W3 m ρ c (Proc.devRef .tc main_v3) = Cert.Gcn.dst (m ((c : Thread nD τ).loc main_arg1)) :=
  (show StableHlo.after hostOps1 (W2 m ρ c) (Proc.devRef .tc main_v3) = W2 m ρ c (Proc.devRef .tc main_v3) by after_results).trans (W2_v3 m ρ c)
theorem W3_v25 (c : Dev nD) : W3 m ρ c (Proc.devRef .tc main_v25) = Cert.Gcn.norm (m ((c : Thread nD τ).loc main_arg1)) :=
  (show StableHlo.after hostOps1 (W2 m ρ c) (Proc.devRef .tc main_v25) = W2 m ρ c (Proc.devRef .tc main_v25) by after_results).trans (W2_v25 m ρ c)
theorem W3_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by after_results).trans (W2_arg4 m ρ c)
theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by after_results).trans (W2_arg5 m ρ c)

/-! ## After the first epilogue region: the first layer -/

theorem W4_v43 (c : Dev nD) : W4 m ρ c (Proc.devRef .tc main_v43) = Cert.Gcn.layerA (m ((c : Thread nD τ).loc main_arg1)) (m ((c : Thread nD τ).loc main_arg0)) (m ((c : Thread nD τ).loc main_arg2)) (m ((c : Thread nD τ).loc main_arg3)) := by
  refine (W4_arr m ρ c 4).trans ((final1 (V3 m ρ) c).trans ?_)
  rw [show V3 m ρ c main_v41 = _ from W3_v41 m ρ c, show V3 m ρ c main_v28 = _ from W3_v28 m ρ c,
      show V3 m ρ c main_v27 = _ from W3_v27 m ρ c, show V3 m ρ c main_v42 = _ from W3_v42 m ρ c]
  rfl

/-- The self-loop column is one of the region's input arrays: it leaves the region as it entered. -/
theorem W4_v27 (c : Dev nD) : W4 m ρ c (Proc.devRef .tc main_v27) = Cert.Gcn.selfScale (m ((c : Thread nD τ).loc main_arg1)) :=
  (W4_arr m ρ c 2).trans (((dat1 (V3 m ρ) c).arrAt_in 2 rfl _).trans ((A_eq1 (V3 m ρ) c 2).trans (W3_v27 m ρ c)))

theorem W4_v1 (c : Dev nD) : W4 m ρ c (Proc.devRef .tc main_v1) = Cert.Gcn.src (m ((c : Thread nD τ).loc main_arg1)) :=
  (W4_of_ne m ρ c main_v1 (by decide)).trans (W3_v1 m ρ c)
theorem W4_v3 (c : Dev nD) : W4 m ρ c (Proc.devRef .tc main_v3) = Cert.Gcn.dst (m ((c : Thread nD τ).loc main_arg1)) :=
  (W4_of_ne m ρ c main_v3 (by decide)).trans (W3_v3 m ρ c)
theorem W4_v25 (c : Dev nD) : W4 m ρ c (Proc.devRef .tc main_v25) = Cert.Gcn.norm (m ((c : Thread nD τ).loc main_arg1)) :=
  (W4_of_ne m ρ c main_v25 (by decide)).trans (W3_v25 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## After the second product region -/

theorem W5_v44 (c : Dev nD) : W5 m ρ c (Proc.devRef .tc main_v44) = Cert.Gcn.mmB (Cert.Gcn.layerA (m ((c : Thread nD τ).loc main_arg1)) (m ((c : Thread nD τ).loc main_arg0)) (m ((c : Thread nD τ).loc main_arg2)) (m ((c : Thread nD τ).loc main_arg3))) (m ((c : Thread nD τ).loc main_arg4)) := by
  refine (W5_arr m ρ c 2).trans ((final2 (V4 m ρ) c).trans ?_)
  rw [show V4 m ρ c main_v43 = _ from W4_v43 m ρ c, show V4 m ρ c main_arg4 = _ from W4_arg4 m ρ c]

theorem W5_v1 (c : Dev nD) : W5 m ρ c (Proc.devRef .tc main_v1) = Cert.Gcn.src (m ((c : Thread nD τ).loc main_arg1)) :=
  (W5_of_ne m ρ c main_v1 (by decide)).trans (W4_v1 m ρ c)
theorem W5_v3 (c : Dev nD) : W5 m ρ c (Proc.devRef .tc main_v3) = Cert.Gcn.dst (m ((c : Thread nD τ).loc main_arg1)) :=
  (W5_of_ne m ρ c main_v3 (by decide)).trans (W4_v3 m ρ c)
theorem W5_v25 (c : Dev nD) : W5 m ρ c (Proc.devRef .tc main_v25) = Cert.Gcn.norm (m ((c : Thread nD τ).loc main_arg1)) :=
  (W5_of_ne m ρ c main_v25 (by decide)).trans (W4_v25 m ρ c)
theorem W5_v27 (c : Dev nD) : W5 m ρ c (Proc.devRef .tc main_v27) = Cert.Gcn.selfScale (m ((c : Thread nD τ).loc main_arg1)) :=
  (W5_of_ne m ρ c main_v27 (by decide)).trans (W4_v27 m ρ c)
theorem W5_arg5 (c : Dev nD) : W5 m ρ c (Proc.devRef .tc main_arg5) = m ((c : Thread nD τ).loc main_arg5) :=
  (W5_of_ne m ρ c main_arg5 (by decide)).trans (W4_arg5 m ρ c)

/-! ## After the third host stretch: the messages of the second layer, aggregated -/

theorem W6_v57 (c : Dev nD) : W6 m ρ c (Proc.devRef .tc main_v57) = Cert.Gcn.agg (m ((c : Thread nD τ).loc main_arg1)) (Cert.Gcn.mmB (Cert.Gcn.layerA (m ((c : Thread nD τ).loc main_arg1)) (m ((c : Thread nD τ).loc main_arg0)) (m ((c : Thread nD τ).loc main_arg2)) (m ((c : Thread nD τ).loc main_arg3))) (m ((c : Thread nD τ).loc main_arg4))) := by
  show StableHlo.after hostOps3 (W5 m ρ c) (Proc.devRef .tc main_v57) = _
  after_results_simp
  rw [W5_v1, W5_v3, W5_v25, W5_v44]
  rfl

theorem W6_v58 (c : Dev nD) : W6 m ρ c (Proc.devRef .tc main_v58) = Cert.Gcn.biasRow (m ((c : Thread nD τ).loc main_arg5)) := by
  show StableHlo.after hostOps3 (W5 m ρ c) (Proc.devRef .tc main_v58) = _
  after_results_simp
  rw [W5_arg5]
  rfl

theorem W6_v44 (c : Dev nD) : W6 m ρ c (Proc.devRef .tc main_v44) = Cert.Gcn.mmB (Cert.Gcn.layerA (m ((c : Thread nD τ).loc main_arg1)) (m ((c : Thread nD τ).loc main_arg0)) (m ((c : Thread nD τ).loc main_arg2)) (m ((c : Thread nD τ).loc main_arg3))) (m ((c : Thread nD τ).loc main_arg4)) :=
  (show StableHlo.after hostOps3 (W5 m ρ c) (Proc.devRef .tc main_v44) = W5 m ρ c (Proc.devRef .tc main_v44) by after_results).trans (W5_v44 m ρ c)
theorem W6_v27 (c : Dev nD) : W6 m ρ c (Proc.devRef .tc main_v27) = Cert.Gcn.selfScale (m ((c : Thread nD τ).loc main_arg1)) :=
  (show StableHlo.after hostOps3 (W5 m ρ c) (Proc.devRef .tc main_v27) = W5 m ρ c (Proc.devRef .tc main_v27) by after_results).trans (W5_v27 m ρ c)

/-! ## After the last epilogue region: the network -/

/-- The result array at the last boundary is the two-layer network of the six arguments. -/
theorem W7_v59 (c : Dev nD) : W7 m ρ c (Proc.devRef .tc main_v59)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((final3 (V6 m ρ) c).trans ?_)
  rw [show V6 m ρ c main_v57 = _ from W6_v57 m ρ c, show V6 m ρ c main_v44 = _ from W6_v44 m ρ c,
      show V6 m ρ c main_v27 = _ from W6_v27 m ρ c, show V6 m ρ c main_v58 = _ from W6_v58 m ρ c]
  rfl

end Cert.KernelIdeal.Fold

end
-- ==== Proof.RefFold.lean ====
/- The reference's result, folded into the two layers. -/
import proofs.«133835_j88064009437952_1_alg».proof.Proof.Gen.ReferenceIdeal.Run
import proofs.«133835_j88064009437952_1_alg».proof.Proof.Gen.ReferenceIdeal.Read
import proofs.«133835_j88064009437952_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.ReferenceIdeal.Fold

open Cert.ReferenceIdeal Cert.ReferenceIdeal.Gen

/-! ## The reference's subterms, named

The same small functions as the shared edge chain, spelt in the reference program's own shape names, each exactly
as the subterm stands in the reference's composed result. -/

section Named

variable {F : FTy → Type} [FloatOps F]

/-- The source node of every edge: row 0 of the edge list. -/
def src (E : (⟨S2x800000, .i32⟩ : BufTy).Contents (Elt F)) : (⟨S800000, .i32⟩ : BufTy).Contents (Elt F) :=
  shapeCast S800000 (extractStridedSlice S1x800000 ![0, 0] E slices_S2x800000_S1x800000_0_0) shapeCasts_S1x800000_S800000

/-- The destination node of every edge: row 1 of the edge list. -/
def dst (E : (⟨S2x800000, .i32⟩ : BufTy).Contents (Elt F)) : (⟨S800000, .i32⟩ : BufTy).Contents (Elt F) :=
  shapeCast S800000 (extractStridedSlice S1x800000 ![1, 0] E slices_S2x800000_S1x800000_1_0) shapeCasts_S1x800000_S800000

/-- A node index read the way array indexing reads it: a negative index counts from the end. -/
def wrap (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- (1 + in-degree)^(-1/2) per node. -/
def dis (E : (⟨S2x800000, .i32⟩ : BufTy).Contents (Elt F)) : (⟨S50000, .f32⟩ : BufTy).Contents (Elt F) :=
  Host.rsqrt (addf (broadcastInDim S50000 ![] bcast_S_S50000 (constant S_ .f32 0x3F800000#32))
    (Host.scatterAdd scatter_S50000_S800000x1_S800000_n_0_0_1 (broadcastInDim S50000 ![] bcast_S_S50000 (constant S_ .f32 0x00000000#32))
      (broadcastInDim S800000x1 ![0] bcast_S800000_S800000x1_0 (dst E))
      (broadcastInDim S800000 ![] bcast_S_S800000 (constant S_ .f32 0x3F800000#32))))

/-- The weight of every edge: dis at its source times dis at its destination. -/
def norm (E : (⟨S2x800000, .i32⟩ : BufTy).Contents (Elt F)) : (⟨S800000, .f32⟩ : BufTy).Contents (Elt F) :=
  mulf (Host.gather gather_S50000_S800000x1_S800000_n_0_n_n_0_1_1 (dis E) (broadcastInDim S800000x1 ![0] bcast_S800000_S800000x1_0 (wrap (src E))))
    (Host.gather gather_S50000_S800000x1_S800000_n_0_n_n_0_1_1 (dis E) (broadcastInDim S800000x1 ![0] bcast_S800000_S800000x1_0 (wrap (dst E))))

/-- The messages aggregated at every node: the source's row of `h`, times the edge's weight, added up by destination. -/
def agg (E : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 (dst E))
    (mulf (Host.gather gather_S50000x128_S800000x1_S800000x128_1_0_n_n_0_1_1128 h (broadcastInDim S800000x1 ![0] bcast_S800000_S800000x1_0 (wrap (src E))))
      (broadcastInDim S800000x128 ![0, 1] bcast_S800000x1_S800000x128_0_1 (broadcastInDim S800000x1 ![0] bcast_S800000_S800000x1_0 (norm E))))

/-- A layer's epilogue on whole arrays: messages, plus the node's own features times the broadcast column of
    squared `dis`, plus the broadcast bias, clipped below at zero. -/
def epi (A H : (⟨S50000x128, .f32⟩ : BufTy).Contents (Elt F)) (d2 : (⟨S50000, .f32⟩ : BufTy).Contents (Elt F))
    (b : (⟨S128, .f32⟩ : BufTy).Contents (Elt F)) : (⟨S50000x128, .f32⟩ : BufTy).Contents (Elt F) :=
  maximumf (addf (addf A (mulf H (broadcastInDim S50000x128 ![0, 1] bcast_S50000x1_S50000x128_0_1 (broadcastInDim S50000x1 ![0] bcast_S50000_S50000x1_0 d2))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The first layer as the reference spells it. -/
def refLayerA (E : (⟨S2x800000, .i32⟩ : BufTy).Contents (Elt F)) (x : (⟨S50000x89, .f32⟩ : BufTy).Contents (Elt F))
    (w : (⟨S89x128, .f32⟩ : BufTy).Contents (Elt F)) (b : (⟨S128, .f32⟩ : BufTy).Contents (Elt F)) :
    (⟨S50000x128, .f32⟩ : BufTy).Contents (Elt F) :=
  epi (agg E (Host.dotGeneral dot_S50000x89_S89x128_S50000x128_1_0_0_1_n_n none x w))
    (Host.dotGeneral dot_S50000x89_S89x128_S50000x128_1_0_0_1_n_n none x w) (mulf (dis E) (dis E)) b

/-- The second layer as the reference spells it. -/
def refLayerB (E : (⟨S2x800000, .i32⟩ : BufTy).Contents (Elt F)) (x : (⟨S50000x128, .f32⟩ : BufTy).Contents (Elt F))
    (w : (⟨S128x128, .f32⟩ : BufTy).Contents (Elt F)) (b : (⟨S128, .f32⟩ : BufTy).Contents (Elt F)) :
    (⟨S50000x128, .f32⟩ : BufTy).Contents (Elt F) :=
  epi (agg E (Host.dotGeneral dot_S50000x128_S128x128_S50000x128_1_0_0_1_n_n none x w))
    (Host.dotGeneral dot_S50000x128_S128x128_S50000x128_1_0_0_1_n_n none x w) (mulf (dis E) (dis E)) b

/-- The reference's result is its second layer of its first layer. -/
theorem fold (m : (ℓ : Loc nD τ sig) → Buf (Elt F) ℓ) (c : Dev nD) :
    Cert.ReferenceIdeal.Value.res_main_v86 (F := F) m c
      = refLayerB (m ((c.tc : Thread nD τ).loc main_arg1))
          (refLayerA (m ((c.tc : Thread nD τ).loc main_arg1)) (m ((c.tc : Thread nD τ).loc main_arg0)) (m ((c.tc : Thread nD τ).loc main_arg2))
            (m ((c.tc : Thread nD τ).loc main_arg3)))
          (m ((c.tc : Thread nD τ).loc main_arg4)) (m ((c.tc : Thread nD τ).loc main_arg5)) := rfl

end Named

/-! ## The edge chain in the two programs' shape names

The two programs name the same literal shapes and dimension records; each function above is, by unfolding those
names, the shared one. -/

section Shared

variable {F : FTy → Type} [FloatOps F]

theorem src_eq (E : (⟨S2x800000, .i32⟩ : BufTy).Contents (Elt F)) : src E = Cert.Gcn.src E := rfl
theorem dst_eq (E : (⟨S2x800000, .i32⟩ : BufTy).Contents (Elt F)) : dst E = Cert.Gcn.dst E := rfl
theorem wrap_eq (s : (⟨S800000, .i32⟩ : BufTy).Contents (Elt F)) : wrap s = Cert.Gcn.wrap s := rfl
theorem dis_eq (E : (⟨S2x800000, .i32⟩ : BufTy).Contents (Elt F)) : dis E = Cert.Gcn.dis E := rfl
theorem norm_eq (E : (⟨S2x800000, .i32⟩ : BufTy).Contents (Elt F)) : norm E = Cert.Gcn.norm E := rfl
theorem agg_eq (E : (⟨S2x800000, .i32⟩ : BufTy).Contents (Elt F)) (h : (⟨S50000x128, .f32⟩ : BufTy).Contents (Elt F)) :
    agg E h = Cert.Gcn.agg E h := rfl

end Shared

/-! ## The dense parts, entry by entry -/

section Dense

/-- The first layer's product: entry (r, c) is the sum over the 89 input features of x[r, k] · w[k, c]. -/
theorem dotA_eq (x : (⟨S50000x89, .f32⟩ : BufTy).Contents (Elt Ideal)) (w : (⟨S89x128, .f32⟩ : BufTy).Contents (Elt Ideal)) :
    Host.dotGeneral (F := Ideal) (φ₁ := .f32) (φ₂ := .f32) dot_S50000x89_S89x128_S50000x128_1_0_0_1_n_n none x w = Cert.Gcn.mmA x w := by
  funext i
  refine (Read.val_main_v11_apply x w i).trans ?_
  show _ = ∑ k : Fin 89, x (Cert.Gcn.rowAt i k) * w (Cert.Gcn.colAt i k)
  refine Finset.sum_congr rfl fun k _ => ?_
  have el : Read.lidx_main_v11 i k = Cert.Gcn.rowAt i k := funext fun a => match a with
    | ⟨0, _⟩ => rfl
    | ⟨1, _⟩ => rfl
  have er : Read.ridx_main_v11 i k = Cert.Gcn.colAt i k := funext fun a => match a with
    | ⟨0, _⟩ => rfl
    | ⟨1, _⟩ => rfl
  rw [el, er]

/-- The second layer's product: entry (r, c) is the sum over the 128 hidden features of y[r, k] · w[k, c]. The
    contraction has one contracted axis of 128 values; under the bijection of its index set with the 128 values the
    left operand is read at (r, k) and the right one at (k, c). -/
theorem dotB_eq (y : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none y w = Cert.Gcn.mmB y w := by
  funext i
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k)
      = Cert.Gcn.rowAt i k := funext fun a => Fin.ext (by
    match a with
    | ⟨0, _⟩ => exact Read.lhs_main_v49_0 _ _
    | ⟨1, _⟩ => exact (Read.lhs_main_v49_1 _ _).trans hk)
  have er : dot_S50000x128_S128x128_S50000x128_1_0_0_1_n_n.rhsIdx i ((ValueIdx.contrEquiv1 dot_S50000x128_S128x128_S50000x128_1_0_0_1_n_n 128 rfl rfl).symm k)
      = Cert.Gcn.colAt i k := funext fun a => Fin.ext (by
    match a with
    | ⟨0, _⟩ => exact (Read.rhs_main_v49_0 _ _).trans hk
    | ⟨1, _⟩ => exact Read.rhs_main_v49_1 _ _)
  rw [el, er]

variable {F : FTy → Type} [FloatOps F]

/-- A vector over the nodes, broadcast to a column and then along the features, reads at (r, c) what the vector
    reshaped to a column holds at (r, 0): both are the vector's entry r. -/
theorem bcCol_apply (d2 : (⟨S50000, .f32⟩ : BufTy).Contents (Elt F)) (i : S50000x128.Idx) :
    broadcastInDim S50000x128 ![0, 1] bcast_S50000x1_S50000x128_0_1 (broadcastInDim S50000x1 ![0] bcast_S50000_S50000x1_0 d2) i
      = shapeCast Cert.KernelIdeal.S50000x1 d2 Cert.KernelIdeal.Gen.shapeCasts_S50000_S50000x1 (Cert.Gcn.rowOnly i) := by
  refine ((broadcastInDim_apply _ bcast_S50000x1_S50000x128_0_1 _ i (Read.idx_main_v42 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])).trans
    (broadcastInDim_apply _ bcast_S50000_S50000x1_0 d2 (Read.idx_main_v42 i) (Read.idx_main_v41 (Read.idx_main_v42 i)) (fun a => match a with
      | ⟨0, _⟩ => by show (i 0).val = if (50000 : Nat) = 1 then 0 else (i 0).val; rw [if_neg (by decide)]))).trans ?_
  refine (shapeCast_apply d2 Cert.KernelIdeal.Gen.shapeCasts_S50000_S50000x1 (Cert.Gcn.rowOnly i) (Read.idx_main_v41 (Read.idx_main_v42 i)) ?_).symm
  rw [Shape.rowMajor_val_one, Shape.rowMajor_val_two]
  show (i 0).val = (i 0).val * 1 + 0
  omega

/-- A vector over the features, broadcast to a row and then along the nodes, reads at (r, c) what the vector
    reshaped to a row holds at (0, c): both are the vector's entry c. -/
theorem bcRow_apply (b : (⟨S128, .f32⟩ : BufTy).Contents (Elt F)) (i : S50000x128.Idx) :
    broadcastInDim S50000x128 ![0, 1] bcast_S1x128_S50000x128_0_1 (broadcastInDim S1x128 ![1] bcast_S128_S1x128_1 b) i
      = shapeCast Cert.KernelIdeal.S1x128 b Cert.KernelIdeal.Gen.shapeCasts_S128_S1x128 (Cert.Gcn.colOnly i) := by
  refine ((broadcastInDim_apply _ bcast_S1x128_S50000x128_0_1 _ i (Read.idx_main_v46 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])).trans
    (broadcastInDim_apply _ bcast_S128_S1x128_1 b (Read.idx_main_v46 i) (Read.idx_main_v45 (Read.idx_main_v46 i)) (fun a => match a with
      | ⟨0, _⟩ => by show (i 1).val = if (128 : Nat) = 1 then 0 else (i 1).val; rw [if_neg (by decide)]))).trans ?_
  refine (shapeCast_apply b Cert.KernelIdeal.Gen.shapeCasts_S128_S1x128 (Cert.Gcn.colOnly i) (Read.idx_main_v45 (Read.idx_main_v46 i)) ?_).symm
  rw [Shape.rowMajor_val_one, Shape.rowMajor_val_two]
  show (i 1).val = 0 * 128 + (i 1).val
  omega

/-- The epilogue on whole arrays is the epilogue entry by entry, with the squared `dis` as a column and the bias
    as a row: the pointwise operations act at each entry, the two broadcasts read the column at the entry's row and
    the row at the entry's column, and the broadcast zero is the zero at every entry. -/
theorem epi_eq (A H : (⟨S50000x128, .f32⟩ : BufTy).Contents (Elt Ideal)) (d2 : (⟨S50000, .f32⟩ : BufTy).Contents (Elt Ideal))
    (b : (⟨S128, .f32⟩ : BufTy).Contents (Elt Ideal)) :
    epi (F := Ideal) A H d2 b
      = Cert.Gcn.comb A H (shapeCast Cert.KernelIdeal.S50000x1 d2 Cert.KernelIdeal.Gen.shapeCasts_S50000_S50000x1)
          (shapeCast Cert.KernelIdeal.S1x128 b Cert.KernelIdeal.Gen.shapeCasts_S128_S1x128) := by
  funext i
  show FloatOps.maximumf (F := Ideal) (FloatOps.addf (F := Ideal) (FloatOps.addf (F := Ideal) (A i) (FloatOps.mulf (F := Ideal) (H i)
        (broadcastInDim S50000x128 ![0, 1] bcast_S50000x1_S50000x128_0_1 (broadcastInDim S50000x1 ![0] bcast_S50000_S50000x1_0 d2) i)))
        (broadcastInDim S50000x128 ![0, 1] bcast_S1x128_S50000x128_0_1 (broadcastInDim S1x128 ![1] bcast_S128_S1x128_1 b) i))
      (broadcastInDim S50000x128 ![] bcast_S_S50000x128 (constant (F := Ideal) S_ .f32 0x00000000#32) i) = _
  rw [bcCol_apply, bcRow_apply]
  rfl

end Dense

/-! ## The two layers and the network -/

theorem refLayerA_eq (E : (⟨S2x800000, .i32⟩ : BufTy).Contents (Elt Ideal)) (x : (⟨S50000x89, .f32⟩ : BufTy).Contents (Elt Ideal))
    (w : (⟨S89x128, .f32⟩ : BufTy).Contents (Elt Ideal)) (b : (⟨S128, .f32⟩ : BufTy).Contents (Elt Ideal)) :
    refLayerA (F := Ideal) E x w b = Cert.Gcn.layerA E x w b := by
  unfold refLayerA Cert.Gcn.layerA
  rw [dotA_eq, epi_eq, agg_eq, dis_eq]
  rfl

theorem refLayerB_eq (E : (⟨S2x800000, .i32⟩ : BufTy).Contents (Elt Ideal)) (x : (⟨S50000x128, .f32⟩ : BufTy).Contents (Elt Ideal))
    (w : (⟨S128x128, .f32⟩ : BufTy).Contents (Elt Ideal)) (b : (⟨S128, .f32⟩ : BufTy).Contents (Elt Ideal)) :
    refLayerB (F := Ideal) E x w b = Cert.Gcn.layerB E x w b := by
  unfold refLayerB Cert.Gcn.layerB
  rw [dotB_eq, epi_eq, agg_eq, dis_eq]
  rfl

/-- The reference's result array is the network of its six arguments. -/
theorem ref_result (m : (ℓ : Loc nD τ sig) → Buf (Elt Ideal) ℓ) (c : Dev nD) :
    Cert.ReferenceIdeal.Value.res_main_v86 (F := Ideal) m c
      = Cert.Gcn.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [fold, refLayerA_eq, refLayerB_eq]
  rfl

end Cert.ReferenceIdeal.Fold

end
-- ==== Proof.lean ====
/- The certificate of a two-layer graph convolution: a kernel program of four tiled regions (two row-block products and two
   epilogues max(A + H · s + b, 0)) around the host's gather / scale / scatter-add over the edges, against the same network
   written with whole-array operations.

   Over the extended reals the two programs compute one function of the six arguments, `Cert.Gcn.net`:
   * the kernel program's result array, read back through @main's seven boundaries, is `net` of the launch contents: each
     product region leaves the whole product (its ten row blocks tile the array and block t holds rows 5000 t … 5000 t + 4999
     of the product), each epilogue region leaves the epilogue of the four arrays it found, and the host stretches between
     them are the edge chain applied to what the region before left;
   * the reference's result term folds into the same two layers: its `dot_general` is the same sum over the inner axis, its
     broadcasts of the self-loop weight and of the bias read the same entries as the kernel's column and row blocks, and its
     edge chain is the same host operations on the same edge list.
   No law of arithmetic beyond these readings is used, so the precondition (finite inputs) is never opened.
   The three frames are the generated ones (the reference's is its run with the result dropped); the idealization rewrote
   nothing, so `preserves` is trivial. -/
import proofs.«133835_j88064009437952_1_alg».proof.Defs
import proofs.«133835_j88064009437952_1_alg».proof.Proof.Gen.Kernel
import proofs.«133835_j88064009437952_1_alg».proof.Proof.Gen.Kernel.Frame
import proofs.«133835_j88064009437952_1_alg».proof.Proof.Gen.KernelIdeal
import proofs.«133835_j88064009437952_1_alg».proof.Proof.Gen.KernelIdeal.Frame
import proofs.«133835_j88064009437952_1_alg».proof.Proof.Gen.ReferenceIdeal
import proofs.«133835_j88064009437952_1_alg».proof.Proof.Gen.Pre_finite_inputs
import proofs.«133835_j88064009437952_1_alg».proof.Proof.Gen.ReferenceIdeal.Run
import proofs.«133835_j88064009437952_1_alg».proof.Proof.Gen.ReferenceIdeal.Read
import proofs.«133835_j88064009437952_1_alg».proof.Proof.Layer
import proofs.«133835_j88064009437952_1_alg».proof.Proof.KRun
import proofs.«133835_j88064009437952_1_alg».proof.Proof.KFold
import proofs.«133835_j88064009437952_1_alg».proof.Proof.RefFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the network of the arguments in their result array and the edge list, returned as it came,
    in the second result; the arguments agree, so the results do. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Named.run (F := Ideal) m ρ)
    obtain ⟨h0, a0, a1, a2, a3, a4, a5⟩ := h c
    exact ⟨h0.trans (Cert.KernelIdeal.Fold.W7_v59 m ρ c), a1, a0, a1, a2, a3, a4, a5⟩
  · refine (θ_run Cert.ReferenceIdeal.defs _ _).mono (fun r h c => ?_) (Cert.ReferenceIdeal.Value.run (F := Ideal) m' ρ')
    obtain ⟨h0, h1, a0, a1, a2, a3, a4, a5⟩ := h c
    obtain ⟨e0, e1, e2, e3, e4, e5⟩ := hagree c
    refine ⟨h0.trans ((Cert.ReferenceIdeal.Fold.ref_result m' c).trans ?_), h1.trans e1, a0, a1, a2, a3, a4, a5⟩
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
